-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1x1024 : Shape := ⟨2, ![1, 1024]⟩
abbrev S1 : Shape := ⟨1, ![1]⟩
abbrev S8x64x2 : Shape := ⟨3, ![8, 64, 2]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x2048x1024 .f32) (main_arg1 : FVec F S1x1024 .f32) (main_arg2 : FVec F S1 .f32) (main_arg3 : IVec S8x64x2 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8x2048x1024 : Shape := ⟨3, ![8, 2048, 1024]⟩
abbrev S1x1024 : Shape := ⟨2, ![1, 1024]⟩
abbrev S1 : Shape := ⟨1, ![1]⟩
abbrev S8x64x2 : Shape := ⟨3, ![8, 64, 2]⟩
abbrev S1x1 : Shape := ⟨2, ![1, 1]⟩
abbrev S8x64x1 : Shape := ⟨3, ![8, 64, 1]⟩
abbrev S1x64x2 : Shape := ⟨3, ![1, 64, 2]⟩
abbrev S1x2048x1024 : Shape := ⟨3, ![1, 2048, 1024]⟩
abbrev S1x64x1 : Shape := ⟨3, ![1, 64, 1]⟩
abbrev S64x2 : Shape := ⟨2, ![64, 2]⟩
abbrev S64x1 : Shape := ⟨2, ![64, 1]⟩
abbrev S64x2048 : Shape := ⟨2, ![64, 2048]⟩
abbrev S64 : Shape := ⟨1, ![64]⟩
abbrev S2048x1024 : Shape := ⟨2, ![2048, 1024]⟩
abbrev S64x1024 : Shape := ⟨2, ![64, 1024]⟩
abbrev S1024x1 : Shape := ⟨2, ![1024, 1]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1, .f32⟩
  | .hbm, ⟨3, _⟩ => ⟨S8x64x2, .i32⟩
  | .hbm, ⟨4, _⟩ => ⟨S1x1, .f32⟩
  | .hbm, ⟨5, _⟩ => ⟨S8x64x1, .f32⟩
  | .hbm, ⟨6, _⟩ => ⟨S512x1, .f32⟩
  | .local _ .vmem, ⟨0, _⟩ => ⟨S1x64x2, .i32⟩
  | .local _ .vmem, ⟨1, _⟩ => ⟨S1x64x2, .i32⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1, .f32⟩
  | .local _ .vmem, ⟨6, _⟩ => ⟨S1x64x1, .f32⟩
  | .local _ .vmem, ⟨7, _⟩ => ⟨S1x64x1, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S1x1 : S1.ShapeCasts S1x1
  inb_S1x64x2_S1x64x2_0_0_0 : ∀ a, (![0, 0, 0] : Fin 3 → Nat) a + S1x64x2.size a ≤ S1x64x2.size a
  h_S1x64x2 : 0 < S1x64x2.numel
  shapeCasts_S1x64x2_S64x2 : S1x64x2.ShapeCasts S64x2
  slices_S64x2_o0_0_S64x1 : S64x2.Slices ![0, 0] S64x1
  slices_S64x2_o0_1_S64x1 : S64x2.Slices ![0, 1] S64x1
  iota_S64x2048_d1_w32 : S64x2048.Iotas .tc 32 [1]
  broadcasts_S64x1_S64x2048 : S64x1.Broadcasts S64x2048
  natLt_1_32 : 1 < 32
  reduces_S64x2048_S64 : S64x2048.Reduces [1] S64
  shapeCasts_S64_S64x1 : S64.ShapeCasts S64x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  broadcasts_S64x1_S64x1024 : S64x1.Broadcasts S64x1024
  inb_S1x1024_S1x1024_0_0 : ∀ a, (![0, 0] : Fin 2 → Nat) a + S1x1024.size a ≤ S1x1024.size a
  h_S1x1024 : 0 < S1x1024.numel
  transposes_S1x1024_p1_0_S1024x1 : S1x1024.Transposes [1, 0] S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x64x1_S512x1 : S8x64x1.ShapeCasts S512x1
  dot_S64x2048_S2048x1024_S64x1024_1_0_0_1_n_n_wf : DotDims.WF S64x2048 S2048x1024 S64x1024 [1] [0] [0] [1] [] []
  dot_S64x1024_S1024x1_S64x1_1_0_0_1_n_n_wf : DotDims.WF S64x1024 S1024x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2.size a ≤ S8x64x2.size a
  hwx0_0 : ∀ i : grid0.Coords, EltTy.bits .i32 = 32 ∨ (Rect.block (s := S8x64x2) S1x64x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S8x64x1.size a
  hwx0_4 : ∀ i : grid0.Coords, EltTy.bits .f32 = 32 ∨ (Rect.block (s := S8x64x1) S1x64x1.size (cc0_transform_4 i) (hinb0_4 i)).WholeWords (EltTy.packing .f32)

variable [Facts₀]

def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x1_S64x1_1_0_0_1_n_n : DotDims S64x1024 S1024x1 S64x1 where
  lhsContracting := [1]
  rhsContracting := [0]
  lhsNonContracting := [0]
  rhsNonContracting := [1]
  lhsBatch := []
  rhsBatch := []
  wf := dot_S64x1024_S1024x1_S64x1_1_0_0_1_n_n_wf

abbrev win0_0 : Pipeline.Window sig grid0 :=
  Pipeline.Window.ofSpec (Memref.whole main_arg3) S1x64x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1x1024 : Shape := ⟨2, ![1, 1024]⟩
abbrev S1 : Shape := ⟨1, ![1]⟩
abbrev S8x64x2 : Shape := ⟨3, ![8, 64, 2]⟩
abbrev S8x64x1 : Shape := ⟨3, ![8, 64, 1]⟩
abbrev S8x64 : Shape := ⟨2, ![8, 64]⟩
abbrev S2048 : Shape := ⟨1, ![2048]⟩
abbrev S1x1x2048 : Shape := ⟨3, ![1, 1, 2048]⟩
abbrev S8x64x2048 : Shape := ⟨3, ![8, 64, 2048]⟩
abbrev S_ : Shape := ⟨0, ![]⟩
abbrev S8x64x1024 : Shape := ⟨3, ![8, 64, 1024]⟩
abbrev S1x1x1 : Shape := ⟨3, ![1, 1, 1]⟩
abbrev S512x1 : Shape := ⟨2, ![512, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1, .f32⟩
  | .hbm, ⟨3, _⟩ => ⟨S8x64x2, .i32⟩
  | .hbm, ⟨4, _⟩ => ⟨S8x64x1, .i32⟩
  | .hbm, ⟨5, _⟩ => ⟨S8x64, .i32⟩
  | .hbm, ⟨6, _⟩ => ⟨S8x64x1, .i32⟩
  | .hbm, ⟨7, _⟩ => ⟨S8x64, .i32⟩
  | .hbm, ⟨8, _⟩ => ⟨S2048, .i32⟩
  | .hbm, ⟨9, _⟩ => ⟨S1x1x2048, .i32⟩
  | .hbm, ⟨10, _⟩ => ⟨S8x64x1, .i32⟩
  | .hbm, ⟨11, _⟩ => ⟨S8x64x2048, .i32⟩
  | .hbm, ⟨12, _⟩ => ⟨S8x64x2048, .i32⟩
  | .hbm, ⟨13, _⟩ => ⟨S8x64x2048, .i1⟩
  | .hbm, ⟨14, _⟩ => ⟨S1x1x2048, .i32⟩
  | .hbm, ⟨15, _⟩ => ⟨S8x64x1, .i32⟩
  | .hbm, ⟨16, _⟩ => ⟨S8x64x2048, .i32⟩
  | .hbm, ⟨17, _⟩ => ⟨S8x64x2048, .i32⟩
  | .hbm, ⟨18, _⟩ => ⟨S8x64x2048, .i1⟩
  | .hbm, ⟨19, _⟩ => ⟨S8x64x2048, .i1⟩
  | .hbm, ⟨20, _⟩ => ⟨S8x64x2048, .f32⟩
  | .hbm, ⟨21, _⟩ => ⟨S_, .f32⟩
  | .hbm, ⟨22, _⟩ => ⟨S8x64, .f32⟩
  | .hbm, ⟨23, _⟩ => ⟨S8x64x1, .f32⟩
  | .hbm, ⟨24, _⟩ => ⟨S_, .f32⟩
  | .hbm, ⟨25, _⟩ => ⟨S8x64x1, .f32⟩
  | .hbm, ⟨26, _⟩ => ⟨S8x64x1, .f32⟩
  | .hbm, ⟨27, _⟩ => ⟨S8x64x1024, .f32⟩
  | .hbm, ⟨28, _⟩ => ⟨S8x64x1024, .f32⟩
  | .hbm, ⟨29, _⟩ => ⟨S8x64x1024, .f32⟩
  | .hbm, ⟨30, _⟩ => ⟨S8x64x1, .f32⟩
  | .hbm, ⟨31, _⟩ => ⟨S1x1x1, .f32⟩
  | .hbm, ⟨32, _⟩ => ⟨S8x64x1, .f32⟩
  | .hbm, ⟨33, _⟩ => ⟨S8x64x1, .f32⟩
  | .hbm, ⟨34, _⟩ => ⟨S512x1, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  slices_S8x64x2_S8x64x1_0_0_0 : S8x64x2.Slices ![0, 0, 0] S8x64x1
  shapeCasts_S8x64x1_S8x64 : S8x64x1.ShapeCasts S8x64
  slices_S8x64x2_S8x64x1_0_0_1 : S8x64x2.Slices ![0, 0, 1] S8x64x1
  bcast_S2048_S1x1x2048_2 : S2048.BroadcastsInDim S1x1x2048 (![2] : Fin 1 → Fin S1x1x2048.rank)
  bcast_S8x64_S8x64x1_0_1 : S8x64.BroadcastsInDim S8x64x1 (![0, 1] : Fin 2 → Fin S8x64x1.rank)
  bcast_S1x1x2048_S8x64x2048_0_1_2 : S1x1x2048.BroadcastsInDim S8x64x2048 (![0, 1, 2] : Fin 3 → Fin S8x64x2048.rank)
  bcast_S8x64x1_S8x64x2048_0_1_2 : S8x64x1.BroadcastsInDim S8x64x2048 (![0, 1, 2] : Fin 3 → Fin S8x64x2048.rank)
  reducesTo_S8x64x2048_S8x64_d2 : S8x64x2048.ReducesTo [2] S8x64
  h_S_ : 0 < S_.numel
  bcast_S_S8x64x1 : S_.BroadcastsInDim S8x64x1 (![] : Fin 0 → Fin S8x64x1.rank)
  bcast_S8x64x1_S8x64x1024_0_1_2 : S8x64x1.BroadcastsInDim S8x64x1024 (![0, 1, 2] : Fin 3 → Fin S8x64x1024.rank)
  bcast_S1_S1x1x1_2 : S1.BroadcastsInDim S1x1x1 (![2] : Fin 1 → Fin S1x1x1.rank)
  bcast_S1x1x1_S8x64x1_0_1_2 : S1x1x1.BroadcastsInDim S8x64x1 (![0, 1, 2] : Fin 3 → Fin S8x64x1.rank)
  shapeCasts_S8x64x1_S512x1 : S8x64x1.ShapeCasts S512x1
  dot_S8x64x2048_S8x2048x1024_S8x64x1024_2_1_1_2_0_0_wf : DotDims.WF S8x64x2048 S8x2048x1024 S8x64x1024 [2] [1] [1] [2] [0] [0]
  dot_S8x64x1024_S1x1024_S8x64x1_2_1_01_0_n_n_wf : DotDims.WF S8x64x1024 S1x1024 S8x64x1 [2] [1] [0, 1] [0] [] []

variable [Facts₀]

def dot_S8x64x2048_S8x2048x1024_S8x64x1024_2_1_1_2_0_0 : DotDims S8x64x2048 S8x2048x1024 S8x64x1024 where
  lhsContracting := [2]
  rhsContracting := [1]
  lhsNonContracting := [1]
  rhsNonContracting := [2]
  lhsBatch := [0]
  rhsBatch := [0]
  wf := dot_S8x64x2048_S8x2048x1024_S8x64x1024_2_1_1_2_0_0_wf
def dot_S8x64x1024_S1x1024_S8x64x1_2_1_01_0_n_n : DotDims S8x64x1024 S1x1024 S8x64x1 where
  lhsContracting := [2]
  rhsContracting := [1]
  lhsNonContracting := [0, 1]
  rhsNonContracting := [0]
  lhsBatch := []
  rhsBatch := []
  wf := dot_S8x64x1024_S1x1024_S8x64x1_2_1_01_0_n_n_wf

class Facts : Prop extends Facts₀ where

variable [Facts]
-- ==== Proof.Spec.lean ====
/-
  What both programs compute, as one function of the argument arrays.

  A batch `b` holds 2048 feature rows of width 1024 and 64 cells; cell `c` names an inclusive span
  `[s, e]` of row positions by two signed 32-bit words. The cell's logit is

      ( Σ_h ( (Σ_l 1[s ≤ l ≤ e] · feat[b, l, h]) / max (Σ_l 1[s ≤ l ≤ e]) 1 ) · w[h] ) + bias,

  the mean of the span's rows (the empty span's count replaced by 1) contracted with the weight row,
  plus the bias. The indicator is kept as the one-bit word the two signed comparisons and their
  conjunction give, read as 0 or 1; every sum is over the whole axis, so no order of summation and
  no law of the extended reals beyond the sums themselves enters.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SpanPool

/-- Position `l` lies in the inclusive span `[s, e]` (signed comparisons of 32-bit words), as one bit. -/
def inSpan (s e : BitVec 32) (l : Fin 2048) : BitVec 1 :=
  IntOp.andi (IntOp.cmpi .sge (BitVec.ofNat 32 l.val) s) (IntOp.cmpi .sle (BitVec.ofNat 32 l.val) e)

/-- The span's indicator as an extended real: 0 or 1. -/
def ind (s e : BitVec 32) (l : Fin 2048) : EReal := ((inSpan s e l).toNat : ℝ)

/-- One cell's logit: the span's mean feature row (count at least 1) against the weight row, plus the bias. -/
def cellLogit (s e : BitVec 32) (f : Fin 2048 → Fin 1024 → EReal) (w : Fin 1024 → EReal) (β : EReal) : EReal :=
  (∑ h : Fin 1024, Ideal.div (∑ l : Fin 2048, ind s e l * f l h)
      (max (∑ l : Fin 2048, ind s e l) (Ideal.ofBits .f32 0x3F800000#32)) * w h) + β

/-- The logits of every batch and cell, from the four argument arrays. -/
def logits (feat : (⟨3, ![8, 2048, 1024]⟩ : Shape).Idx → EReal) (w : (⟨2, ![1, 1024]⟩ : Shape).Idx → EReal)
    (bias : (⟨1, ![1]⟩ : Shape).Idx → EReal) (pos : (⟨3, ![8, 64, 2]⟩ : Shape).Idx → BitVec 32) :
    (⟨3, ![8, 64, 1]⟩ : Shape).Idx → EReal :=
  fun i => cellLogit (pos (ix3 (i 0) (i 1) (0 : Fin 2))) (pos (ix3 (i 0) (i 1) (1 : Fin 2)))
    (fun l h => feat (ix3 (i 0) l h)) (fun h => w (ix2 (0 : Fin 1) h)) (bias (ix1 (0 : Fin 1)))

/-- A bit widened to 32 bits and read signed is the bit read unsigned: both are 0 or 1. -/
theorem bit_widened_signed (b : BitVec 1) : (((b.setWidth 32).toInt : ℝ) : EReal) = ((b.toNat : ℝ) : EReal) := by
  by_cases h : b = 1#1
  · subst h; norm_num
  · have h0 := eq_zero_of_ne_one h; subst h0; norm_num

end Cert.SpanPool

end
-- ==== Proof.Reference.lean ====
/-
  The reference's result, before its last reshape, is `logits` of the four arguments.

  Read stage by stage at explicit coordinates (b, c, l, h): the mask stage at (b, c, l) is the
  indicator of cell (b, c)'s span at position l (the position iota broadcast along the batch and
  cell axes, the two span ends sliced out of the position list and broadcast along the position axis);
  the count stage is the indicator's sum over l, the sum's initial value 0 dropped, against 1; the
  batched contraction over l and the contraction over h are the two sums of `cellLogit`; the bias is
  the one entry of its array broadcast to every cell.
-/
import proofs.«141874_j63428077027810_1_alg».proof.Proof.Gen.ReferenceIdeal.Run
import proofs.«141874_j63428077027810_1_alg».proof.Proof.Gen.ReferenceIdeal.Read
import proofs.«141874_j63428077027810_1_alg».proof.Proof.Spec

noncomputable section

open Idealize.ShloMosaic Idealize.ShloMosaic.ValueIdx

namespace Cert.SpanPool.Ref

open Cert.ReferenceIdeal Cert.ReferenceIdeal.Read

variable (x0 : (⟨S8x2048x1024, .f32⟩ : BufTy).Contents (Elt Ideal)) (x1 : (⟨S1x1024, .f32⟩ : BufTy).Contents (Elt Ideal))
  (x2 : (⟨S1, .f32⟩ : BufTy).Contents (Elt Ideal)) (x3 : (⟨S8x64x2, .i32⟩ : BufTy).Contents (Elt Ideal))

/-! ## Where each stage reads its operand, in coordinates -/

theorem start_idx (b : Fin 8) (c : Fin 64) (l : Fin 2048) :
    idx_main_v0 (idx_main_v1 (idx_main_v6 (idx_main_v8 (ix3 b c l)))) = ix3 b c (0 : Fin 2) :=
  funext fun a => Fin.ext (by
    have hc : c.val < 64 := c.isLt
    match a with
    | ⟨0, _⟩ => show (b.val * 64 + c.val) / 64 = b.val; omega
    | ⟨1, _⟩ => show (b.val * 64 + c.val) / 1 % 64 = c.val; omega
    | ⟨2, _⟩ => rfl)

theorem end_idx (b : Fin 8) (c : Fin 64) (l : Fin 2048) :
    idx_main_v2 (idx_main_v3 (idx_main_v11 (idx_main_v13 (ix3 b c l)))) = ix3 b c (1 : Fin 2) :=
  funext fun a => Fin.ext (by
    have hc : c.val < 64 := c.isLt
    match a with
    | ⟨0, _⟩ => show (b.val * 64 + c.val) / 64 = b.val; omega
    | ⟨1, _⟩ => show (b.val * 64 + c.val) / 1 % 64 = c.val; omega
    | ⟨2, _⟩ => rfl)

theorem count_idx (b : Fin 8) (c : Fin 64) (u : Fin 1) (k : Fin 2048) :
    idx_main_v17 (idx_main_v18 (ix3 b c u)) k = ix3 b c k :=
  funext fun a => by match a with | ⟨0, _⟩ => rfl | ⟨1, _⟩ => rfl | ⟨2, _⟩ => rfl

theorem denom_idx (b : Fin 8) (c : Fin 64) (h : Fin 1024) : idx_main_v22 (ix3 b c h) = ix3 b c (0 : Fin 1) :=
  funext fun a => by match a with | ⟨0, _⟩ => rfl | ⟨1, _⟩ => rfl | ⟨2, _⟩ => rfl

theorem pool_lidx (b : Fin 8) (c : Fin 64) (h : Fin 1024) (k : Fin 2048) : lidx_main_v21 (ix3 b c h) k = ix3 b c k :=
  funext fun a => by match a with | ⟨0, _⟩ => rfl | ⟨1, _⟩ => rfl | ⟨2, _⟩ => rfl

theorem pool_ridx (b : Fin 8) (c : Fin 64) (h : Fin 1024) (k : Fin 2048) : ridx_main_v21 (ix3 b c h) k = ix3 b k h :=
  funext fun a => by match a with | ⟨0, _⟩ => rfl | ⟨1, _⟩ => rfl | ⟨2, _⟩ => rfl

theorem fc_lidx (b : Fin 8) (c : Fin 64) (u : Fin 1) (k : Fin 1024) : lidx_main_v24 (ix3 b c u) k = ix3 b c k :=
  funext fun a => by match a with | ⟨0, _⟩ => rfl | ⟨1, _⟩ => rfl | ⟨2, _⟩ => rfl

theorem fc_ridx (b : Fin 8) (c : Fin 64) (u : Fin 1) (k : Fin 1024) : ridx_main_v24 (ix3 b c u) k = ix2 (0 : Fin 1) k :=
  funext fun a => Fin.ext (by
    match a with
    | ⟨0, _⟩ => show u.val = 0; omega
    | ⟨1, _⟩ => rfl)

theorem bias_idx (b : Fin 8) (c : Fin 64) (u : Fin 1) : idx_main_v25 (idx_main_v26 (ix3 b c u)) = ix1 (0 : Fin 1) :=
  funext fun a => by match a with | ⟨0, _⟩ => rfl

/-! ## The stages -/

/-- The mask stage at (b, c, l): whether position l lies in cell (b, c)'s span, as 0 or 1. -/
theorem mask_apply (b : Fin 8) (c : Fin 64) (l : Fin 2048) :
    val_main_v16 (F := Ideal) x3 (ix3 b c l) = ind (x3 (ix3 b c (0 : Fin 2))) (x3 (ix3 b c (1 : Fin 2))) l := by
  simp only [val_main_v16_apply, val_main_v15_apply, val_main_v9_apply, val_main_v14_apply, val_main_v7_apply,
    val_main_v5_apply, val_main_v12_apply, val_main_v10_apply, val_main_v4_apply, val_main_v8_apply, val_main_v6_apply,
    val_main_v1_apply, val_main_v0_apply, val_main_v13_apply, val_main_v11_apply, val_main_v3_apply, val_main_v2_apply,
    start_idx, end_idx]
  rfl

/-- The count stage at (b, c): the span's length, at least 1. -/
theorem count_apply (b : Fin 8) (c : Fin 64) (u : Fin 1) :
    val_main_v20 (F := Ideal) x3 (ix3 b c u)
      = max (∑ l : Fin 2048, ind (x3 (ix3 b c (0 : Fin 2))) (x3 (ix3 b c (1 : Fin 2))) l) (Ideal.ofBits .f32 0x3F800000#32) := by
  rw [val_main_v20_apply, val_main_v18_apply, val_main_v17_apply, val_main_v19_apply, val_main_cst_0_apply, val_main_cst_apply]
  simp only [count_idx, mask_apply]
  show max (Ideal.ofBits .f32 0x00000000#32 + _) _ = _
  rw [Ideal.ofBits_zero_f32, zero_add]
  rfl

/-- The pooled stage at (b, c, h): the span's rows of column h summed, over the count. -/
theorem pooled_apply (b : Fin 8) (c : Fin 64) (h : Fin 1024) :
    val_main_v23 (F := Ideal) x0 x3 (ix3 b c h)
      = Ideal.div (∑ l : Fin 2048, ind (x3 (ix3 b c (0 : Fin 2))) (x3 (ix3 b c (1 : Fin 2))) l * x0 (ix3 b l h))
          (max (∑ l : Fin 2048, ind (x3 (ix3 b c (0 : Fin 2))) (x3 (ix3 b c (1 : Fin 2))) l) (Ideal.ofBits .f32 0x3F800000#32)) := by
  rw [val_main_v23_apply, val_main_v21_apply, val_main_v22_apply, denom_idx, count_apply]
  simp only [pool_lidx, pool_ridx, mask_apply]
  rfl

/-- The reference's result before its last reshape is `logits` of the arguments. -/
theorem result_eq : val_main_v27 (F := Ideal) x0 x1 x2 x3 = logits x0 x1 x2 x3 := by
  funext i
  obtain ⟨b, c, u, rfl⟩ : ∃ (b : Fin 8) (c : Fin 64) (u : Fin 1), i = ix3 b c u := ⟨i 0, i 1, i 2, eq_ix3 i⟩
  rw [val_main_v27_apply, val_main_v24_apply, val_main_v26_apply, val_main_v25_apply, bias_idx]
  simp only [fc_lidx, fc_ridx, pooled_apply]
  rfl

end Cert.SpanPool.Ref

end
-- ==== Proof.Body.lean ====
/-
  What one grid point's body stores, cell by cell.

  At a grid point the body holds one batch: the batch's 64 span pairs `p` ([1, 64, 2] words), its
  feature rows `f` ([1, 2048, 1024]), the weight row `w` ([1, 1024]) and the bias `β` ([1, 1]). The value
  it stores at cell `c` is `cellLogit` of the cell's two span ends, the batch's rows, the weight row and
  the bias. Read operation by operation: the two columns of the span pairs broadcast along the position
  axis against the position iota give the span's indicator bit; the bit widened and read signed is the
  bit read unsigned; the lane sum of the indicator (kept as a column) against 1 is the count; the
  first matrix product, into a zero accumulator, is the sum over positions; the quotient by the count's
  column broadcast along the feature axis is the pooled row; the second matrix product against the
  transposed weight row is the sum over features; the changes of float format in front of both
  products are the identity on the extended reals.
-/
import proofs.«141874_j63428077027810_1_alg».proof.Proof.Gen.KernelIdeal.Skeleton
import proofs.«141874_j63428077027810_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.SpanPool.Body

open Cert.KernelIdeal Cert.KernelIdeal.Gen

/-! ## Layout operations of the body, at coordinates -/

/-- Column `k` of the batch's span pairs, broadcast along the position axis, at (c, l): cell c's end `k`. -/
theorem span_end_apply (p : Vec Ideal S1x64x2 .i32) (k : Fin 2) (h1 : S1x64x2.ShapeCasts S64x2)
    (h2 : S64x2.Slices ![0, k.val] S64x1) (h3 : S64x1.Broadcasts S64x2048) (c : Fin 64) (l : Fin 2048) :
    broadcastTo S64x2048 (extractStridedSlice S64x1 ![0, k.val] (shapeCast S64x2 p h1) h2) h3 (ix2 c l)
      = p (ix3 (0 : Fin 1) c k) := by
  refine (broadcastTo_apply _ h3 (ix2 c l) (ix2 c (0 : Fin 1)) fun a => ?_).trans ?_
  · match a with
    | ⟨0, _⟩ => show c.val = if (64 : Nat) = 1 then 0 else c.val; rw [if_neg (by decide)]
    | ⟨1, _⟩ => show 0 = if (1 : Nat) = 1 then 0 else l.val; rw [if_pos rfl]
  refine (extractStridedSlice_apply ![0, k.val] _ h2 (ix2 c (0 : Fin 1)) (ix2 c k) fun a => ?_).trans ?_
  · match a with
    | ⟨0, _⟩ => show c.val = 0 + c.val; omega
    | ⟨1, _⟩ => show k.val = k.val + 0; omega
  exact shapeCast_1ab_ab_apply p h1 c k

/-- A lane sum kept as a column: row c of the [64] sums sits at (c, 0) of the [64, 1] column. -/
theorem column_of_sums_apply (x : FVec Ideal S64 .f32) (h : S64.ShapeCasts S64x1) (c : Fin 64) (u : Fin 1) :
    shapeCast S64x1 x h (ix2 c u) = x (ix1 c) :=
  shapeCast_apply x h _ _ (by
    have hu : u.val = 0 := by omega
    rw [Shape.rowMajor_val_one, Shape.rowMajor_val_two]
    show c.val = c.val * 1 + u.val
    omega)

/-- A [64, 1] column broadcast along the feature axis: (c, h) reads (c, 0). -/
theorem column_broadcast_apply (x : FVec Ideal S64x1 .f32) (h : S64x1.Broadcasts S64x1024) (c : Fin 64) (j : Fin 1024) :
    broadcastTo S64x1024 x h (ix2 c j) = x (ix2 c (0 : Fin 1)) := by
  refine broadcastTo_apply x h (ix2 c j) (ix2 c (0 : Fin 1)) fun a => ?_
  match a with
  | ⟨0, _⟩ => show c.val = if (64 : Nat) = 1 then 0 else c.val; rw [if_neg (by decide)]
  | ⟨1, _⟩ => show 0 = if (1 : Nat) = 1 then 0 else j.val; rw [if_pos rfl]

/-- The lane sum of a [64, 2048] value at row c is the sum of the row. -/
theorem row_sum_apply (x : FVec Ideal S64x2048 .f32) (h : S64x2048.Reduces [1] S64) (hφ : FKind.Formats .f32)
    (hacc : (0x00000000#32 : BitVec FTy.f32.bits) = FKind.add.neutral .f32 hφ) (c : Fin 64) :
    multiReduction .add [1] S64 x 0x00000000#32 h hφ hacc (ix1 c) = ∑ l : Fin 2048, x (ix2 c l) :=
  (Ideal.multiReduction_add_single x _ h hφ hacc (ix1 c)).trans
    (Finset.sum_congr rfl fun l _ => congrArg x (funext fun a => by match a with | ⟨0, _⟩ => rfl | ⟨1, _⟩ => rfl))

/-! ## The span's indicator -/

/-- The body's mask at (c, l): whether position l lies in cell c's span, as 0 or 1 — the position iota against the
    two broadcast span ends, the conjunction's bit widened to a word and read signed. -/
theorem mask_apply (p : Vec Ideal S1x64x2 .i32) (h1 : S1x64x2.ShapeCasts S64x2) (h2 : S64x2.Slices ![0, 0] S64x1)
    (h2' : S64x2.Slices ![0, 1] S64x1) (h3 : S64x1.Broadcasts S64x2048) (hi : S64x2048.Iotas .tc 32 [1]) (hlt : 1 < 32)
    (c : Fin 64) (l : Fin 2048) :
    (sitofp .f32 (extui 32 (andi
        (cmpi .sge (iota .tc S64x2048 32 [1] hi) (broadcastTo S64x2048 (extractStridedSlice S64x1 ![0, 0] (shapeCast S64x2 p h1) h2) h3))
        (cmpi .sle (iota .tc S64x2048 32 [1] hi) (broadcastTo S64x2048 (extractStridedSlice S64x1 ![0, 1] (shapeCast S64x2 p h1) h2') h3)))
      hlt) : FVec Ideal S64x2048 .f32) (ix2 c l)
      = ind (p (ix3 (0 : Fin 1) c (0 : Fin 2))) (p (ix3 (0 : Fin 1) c (1 : Fin 2))) l := by
  have e4 : iota .tc S64x2048 32 [1] hi (ix2 c l) = BitVec.ofNat 32 l.val := iota_single_apply .tc S64x2048 32 1 hi (ix2 c l)
  have e5 : broadcastTo S64x2048 (extractStridedSlice S64x1 ![0, 0] (shapeCast S64x2 p h1) h2) h3 (ix2 c l) = p (ix3 (0 : Fin 1) c (0 : Fin 2)) :=
    span_end_apply p 0 h1 h2 h3 c l
  have e7 : broadcastTo S64x2048 (extractStridedSlice S64x1 ![0, 1] (shapeCast S64x2 p h1) h2') h3 (ix2 c l) = p (ix3 (0 : Fin 1) c (1 : Fin 2)) :=
    span_end_apply p 1 h1 h2' h3 c l
  simp only [sitofp, extui, andi, cmpi]
  rw [e4, e5, e7]
  exact bit_widened_signed _

/-! ## The two matrix products, as sums -/

theorem pool_lhs_0 (i : S64x1024.Idx) (q : dot_S64x2048_S2048x1024_S64x1024_1_0_0_1_n_n.contr.Idx) : (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide), dif_pos (show (0 : Fin S64x2048.rank) ∈ dot_S64x2048_S2048x1024_S64x1024_1_0_0_1_n_n.lhsNonContracting by decide)]
  rfl
theorem pool_lhs_1 (i : S64x1024.Idx) (q : dot_S64x2048_S2048x1024_S64x1024_1_0_0_1_n_n.contr.Idx) : (dot_S64x2048_S2048x1024_S64x1024_1_0_0_1_n_n.lhsIdx i q 1).val = (q ⟨0, by decide⟩).val :=
  dot_S64x2048_S2048x1024_S64x1024_1_0_0_1_n_n.lhsIdx_val_of_single rfl i q
theorem pool_rhs_0 (i : S64x1024.Idx) (q : dot_S64x2048_S2048x1024_S64x1024_1_0_0_1_n_n.contr.Idx) : (dot_S64x2048_S2048x1024_S64x1024_1_0_0_1_n_n.rhsIdx i q 0).val = (q ⟨0, by decide⟩).val :=
  dot_S64x2048_S2048x1024_S64x1024_1_0_0_1_n_n.rhsIdx_val_of_single rfl i q
theorem pool_rhs_1 (i : S64x1024.Idx) (q : dot_S64x2048_S2048x1024_S64x1024_1_0_0_1_n_n.contr.Idx) : (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide), dif_pos (show (1 : Fin S2048x1024.rank) ∈ dot_S64x2048_S2048x1024_S64x1024_1_0_0_1_n_n.rhsNonContracting by decide)]
  rfl

/-- The pooling product into a zero accumulator, at (c, h): the sum over positions l of mask (c, l) · rows (l, h). -/
theorem pool_matmul_apply (a : FVec Ideal S64x2048 .bf16) (b : FVec Ideal S2048x1024 .bf16) (c : Fin 64) (h : Fin 1024) :
    matmul dot_S64x2048_S2048x1024_S64x1024_1_0_0_1_n_n none a b (constant S64x1024 .f32 0x00000000#32) (ix2 c h) = ∑ l : Fin 2048, a (ix2 c l) * b (ix2 l h) := by
  simp only [matmul]
  rw [Ideal.matmul_constant_zero_apply, ← Equiv.sum_comp (contrEquiv1 dot_S64x2048_S2048x1024_S64x1024_1_0_0_1_n_n 2048 rfl rfl).symm]
  refine Finset.sum_congr rfl fun k _ => ?_
  have hk := contrEquiv1_symm_val dot_S64x2048_S2048x1024_S64x1024_1_0_0_1_n_n 2048 rfl rfl k
  have el : dot_S64x2048_S2048x1024_S64x1024_1_0_0_1_n_n.lhsIdx (ix2 c h) ((contrEquiv1 dot_S64x2048_S2048x1024_S64x1024_1_0_0_1_n_n 2048 rfl rfl).symm k) = ix2 c k := funext fun a => Fin.ext (by
    match a with
    | ⟨0, _⟩ => exact pool_lhs_0 _ _
    | ⟨1, _⟩ => exact (pool_lhs_1 _ _).trans hk)
  have er : dot_S64x2048_S2048x1024_S64x1024_1_0_0_1_n_n.rhsIdx (ix2 c h) ((contrEquiv1 dot_S64x2048_S2048x1024_S64x1024_1_0_0_1_n_n 2048 rfl rfl).symm k) = ix2 k h := funext fun a => Fin.ext (by
    match a with
    | ⟨0, _⟩ => exact (pool_rhs_0 _ _).trans hk
    | ⟨1, _⟩ => exact pool_rhs_1 _ _)
  rw [el, er]

theorem fc_lhs_0 (i : S64x1.Idx) (q : dot_S64x1024_S1024x1_S64x1_1_0_0_1_n_n.contr.Idx) : (dot_S64x1024_S1024x1_S64x1_1_0_0_1_n_n.lhsIdx i q 0).val = (i 0).val := by
  unfold DotDims.lhsIdx
  rw [dif_neg (show ¬(0 : Fin S64x1024.rank) ∈ dot_S64x1024_S1024x1_S64x1_1_0_0_1_n_n.lhsBatch by decide), dif_pos (show (0 : Fin S64x1024.rank) ∈ dot_S64x1024_S1024x1_S64x1_1_0_0_1_n_n.lhsNonContracting by decide)]
  rfl
theorem fc_lhs_1 (i : S64x1.Idx) (q : dot_S64x1024_S1024x1_S64x1_1_0_0_1_n_n.contr.Idx) : (dot_S64x1024_S1024x1_S64x1_1_0_0_1_n_n.lhsIdx i q 1).val = (q ⟨0, by decide⟩).val :=
  dot_S64x1024_S1024x1_S64x1_1_0_0_1_n_n.lhsIdx_val_of_single rfl i q
theorem fc_rhs_0 (i : S64x1.Idx) (q : dot_S64x1024_S1024x1_S64x1_1_0_0_1_n_n.contr.Idx) : (dot_S64x1024_S1024x1_S64x1_1_0_0_1_n_n.rhsIdx i q 0).val = (q ⟨0, by decide⟩).val :=
  dot_S64x1024_S1024x1_S64x1_1_0_0_1_n_n.rhsIdx_val_of_single rfl i q
theorem fc_rhs_1 (i : S64x1.Idx) (q : dot_S64x1024_S1024x1_S64x1_1_0_0_1_n_n.contr.Idx) : (dot_S64x1024_S1024x1_S64x1_1_0_0_1_n_n.rhsIdx i q 1).val = (i 1).val := by
  unfold DotDims.rhsIdx
  rw [dif_neg (show ¬(1 : Fin S1024x1.rank) ∈ dot_S64x1024_S1024x1_S64x1_1_0_0_1_n_n.rhsBatch by decide), dif_pos (show (1 : Fin S1024x1.rank) ∈ dot_S64x1024_S1024x1_S64x1_1_0_0_1_n_n.rhsNonContracting by decide)]
  rfl

/-- The product with the weight column into a zero accumulator, at (c, 0): the sum over features h of pooled (c, h) · weight (h, 0). -/
theorem fc_matmul_apply (a : FVec Ideal S64x1024 .bf16) (b : FVec Ideal S1024x1 .bf16) (c : Fin 64) (u : Fin 1) :
    matmul dot_S64x1024_S1024x1_S64x1_1_0_0_1_n_n none a b (constant S64x1 .f32 0x00000000#32) (ix2 c u) = ∑ h : Fin 1024, a (ix2 c h) * b (ix2 h u) := by
  simp only [matmul]
  rw [Ideal.matmul_constant_zero_apply, ← Equiv.sum_comp (contrEquiv1 dot_S64x1024_S1024x1_S64x1_1_0_0_1_n_n 1024 rfl rfl).symm]
  refine Finset.sum_congr rfl fun k _ => ?_
  have hk := contrEquiv1_symm_val dot_S64x1024_S1024x1_S64x1_1_0_0_1_n_n 1024 rfl rfl k
  have el : dot_S64x1024_S1024x1_S64x1_1_0_0_1_n_n.lhsIdx (ix2 c u) ((contrEquiv1 dot_S64x1024_S1024x1_S64x1_1_0_0_1_n_n 1024 rfl rfl).symm k) = ix2 c k := funext fun a => Fin.ext (by
    match a with
    | ⟨0, _⟩ => exact fc_lhs_0 _ _
    | ⟨1, _⟩ => exact (fc_lhs_1 _ _).trans hk)
  have er : dot_S64x1024_S1024x1_S64x1_1_0_0_1_n_n.rhsIdx (ix2 c u) ((contrEquiv1 dot_S64x1024_S1024x1_S64x1_1_0_0_1_n_n 1024 rfl rfl).symm k) = ix2 k u := funext fun a => Fin.ext (by
    match a with
    | ⟨0, _⟩ => exact (fc_rhs_0 _ _).trans hk
    | ⟨1, _⟩ => exact fc_rhs_1 _ _)
  rw [el, er]

/-! ## The stored value at a cell -/

/-- What the body stores at cell c, from the point's four blocks: the cell's logit. -/
theorem pay_apply (p : Vec Ideal S1x64x2 .i32) (f : Vec Ideal S1x2048x1024 .f32) (w : Vec Ideal S1x1024 .f32) (β : Vec Ideal S1x1 .f32)
    (u : Fin 1) (c : Fin 64) (u' : Fin 1) :
    k0_pay1 (F := Ideal) p f w β (ix3 u c u')
      = cellLogit (p (ix3 (0 : Fin 1) c (0 : Fin 2))) (p (ix3 (0 : Fin 1) c (1 : Fin 2))) (fun l h => f (ix3 (0 : Fin 1) l h))
          (fun h => w (ix2 (0 : Fin 1) h)) (β (ix2 (0 : Fin 1) (0 : Fin 1))) := by
  obtain rfl : u' = 0 := Subsingleton.elim _ _
  unfold k0_pay1 cellLogit
  refine (shapeCast_ab_1ab_apply _ _ u c 0).trans ?_
  refine (addf_apply _ _ _).trans ?_
  refine congrArg₂ (· + ·) ?_ ?_
  · refine (fc_matmul_apply _ _ c 0).trans (Finset.sum_congr rfl fun h _ => congrArg₂ (· * ·) ?_ ?_)
    · refine (truncf_apply (φ := .f32) (ψ := .bf16) _ _ _).trans ?_
      refine (divf_apply _ _ _).trans ?_
      refine congrArg₂ Ideal.div ?_ ?_
      · refine (pool_matmul_apply _ _ c h).trans (Finset.sum_congr rfl fun l _ => congrArg₂ (· * ·) ?_ ?_)
        · exact (truncf_apply (φ := .f32) (ψ := .bf16) _ _ _).trans (mask_apply p _ _ _ _ _ _ c l)
        · exact (truncf_apply (φ := .f32) (ψ := .bf16) _ _ _).trans (shapeCast_1ab_ab_apply f _ l h)
      · refine (column_broadcast_apply _ _ c h).trans ?_
        refine (maximumf_apply _ _ _).trans ?_
        refine congrArg₂ max ?_ rfl
        refine (column_of_sums_apply _ _ c 0).trans ?_
        exact (row_sum_apply _ _ _ _ c).trans (Finset.sum_congr rfl fun l _ => mask_apply p _ _ _ _ _ _ c l)
    · exact (transpose_ix2_apply _ _ h 0).trans (truncf_apply (φ := .f32) (ψ := .bf16) _ _ _)
  · exact congrArg β (funext fun a => by match a with | ⟨0, _⟩ => rfl | ⟨1, _⟩ => rfl)

end Cert.SpanPool.Body

end
-- ==== Proof.KernelValue.lean ====
/-
  The kernel's result array, read off its run.

  Grid point `t` works on batch `t`: its span-pair and feature blocks are batch `t` of their arrays, the
  weight row and the bias entry are the whole of theirs, and the block it writes back is batch `t` of the
  [8, 64, 1] output. Each cell of that block is `cellLogit` of the batch's data (the body's stored value at a
  cell), which is `logits` of the four arguments at (t, c, 0); the eight blocks tile the output, so after the
  run the output array is `logits`. The bias reaches the body through a [1] → [1, 1] reshape before the
  launch, and the program's result is the output array reshaped [8, 64, 1] → [512, 1] after it.
-/
import proofs.«141874_j63428077027810_1_alg».proof.Proof.Gen.KernelIdeal.Frame
import proofs.«141874_j63428077027810_1_alg».proof.Proof.Body
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.SpanPool.Kernel

open Cert.KernelIdeal Cert.KernelIdeal.Gen Cert.SpanPool.Body

variable (m : (ℓ : Loc nD τ sig) → Buf (Elt Ideal) ℓ) (ρ : Dev nD → PrngReg)

/-- The output array after the run: the logits of the four arguments as launched. -/
abbrev result (c : Dev nD) : (⟨3, ![8, 64, 1]⟩ : Shape).Idx → EReal :=
  logits (m ((c : Thread nD τ).loc main_arg0)) (m ((c : Thread nD τ).loc main_arg1)) (m ((c : Thread nD τ).loc main_arg2))
    (m ((c : Thread nD τ).loc main_arg3))

/-! ## The grid: point t is batch t -/

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the eight points: the three batched windows sit at block (t, 0, 0), the two
    shared ones at block (0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch a grid point works on. -/
def batch (t : Fin cfg0.N) : Fin 8 := ⟨t.val, Nat.lt_of_lt_of_eq t.isLt N_0⟩

/-! ## The point's four input blocks, as the arguments' entries -/

abbrev spanBlk (c : Dev nD) (t : Fin cfg0.N) : Vec Ideal S1x64x2 .i32 := iblk m c 0 t
abbrev rowBlk (c : Dev nD) (t : Fin cfg0.N) : Vec Ideal S1x2048x1024 .f32 := iblk m c 1 t
abbrev weightBlk (c : Dev nD) (t : Fin cfg0.N) : Vec Ideal S1x1024 .f32 := iblk m c 2 t
abbrev biasBlk (c : Dev nD) (t : Fin cfg0.N) : Vec Ideal S1x1 .f32 := iblk m c 3 t

theorem spanBlk_apply (c : Dev nD) (t : Fin cfg0.N) (u : Fin 1) (cc : Fin 64) (k : Fin 2) :
    spanBlk m c t (ix3 u cc k) = (m ((c : Thread nD τ).loc main_arg3) : S8x64x2.Idx → BitVec 32) (ix3 (batch t) cc k) := by
  obtain ⟨e0, e1, e2, -⟩ := block_index t
  show V m c main_arg3 (((cfg0.win 0).blk t).view.emb (ix3 u cc k)) = _
  rw [V_main_arg3]
  refine congrArg (m ((c : Thread nD τ).loc main_arg3)) (funext fun a => Fin.ext ?_)
  match a with
  | ⟨0, _⟩ => show win0_0.index t (0 : Fin 3) * 1 + 1 * u.val = t.val; omega
  | ⟨1, _⟩ => show win0_0.index t (1 : Fin 3) * 64 + 1 * cc.val = cc.val; omega
  | ⟨2, _⟩ => show win0_0.index t (2 : Fin 3) * 2 + 1 * k.val = k.val; omega

theorem rowBlk_apply (c : Dev nD) (t : Fin cfg0.N) (u : Fin 1) (l : Fin 2048) (h : Fin 1024) :
    rowBlk m c t (ix3 u l h) = (m ((c : Thread nD τ).loc main_arg0) : S8x2048x1024.Idx → EReal) (ix3 (batch t) l h) := by
  obtain ⟨-, -, -, e0, e1, e2, -⟩ := block_index t
  show V m c main_arg0 (((cfg0.win 1).blk t).view.emb (ix3 u l h)) = _
  rw [V_main_arg0]
  refine congrArg (m ((c : Thread nD τ).loc main_arg0)) (funext fun a => Fin.ext ?_)
  match a with
  | ⟨0, _⟩ => show win0_1.index t (0 : Fin 3) * 1 + 1 * u.val = t.val; omega
  | ⟨1, _⟩ => show win0_1.index t (1 : Fin 3) * 2048 + 1 * l.val = l.val; omega
  | ⟨2, _⟩ => show win0_1.index t (2 : Fin 3) * 1024 + 1 * h.val = h.val; omega

theorem weightBlk_apply (c : Dev nD) (t : Fin cfg0.N) (u : Fin 1) (h : Fin 1024) :
    weightBlk m c t (ix2 u h) = (m ((c : Thread nD τ).loc main_arg1) : S1x1024.Idx → EReal) (ix2 (0 : Fin 1) h) := by
  obtain ⟨-, -, -, -, -, -, e0, e1, -⟩ := block_index t
  show V m c main_arg1 (((cfg0.win 2).blk t).view.emb (ix2 u h)) = _
  rw [V_main_arg1]
  refine congrArg (m ((c : Thread nD τ).loc main_arg1)) (funext fun a => Fin.ext ?_)
  match a with
  | ⟨0, _⟩ => show win0_2.index t (0 : Fin 2) * 1 + 1 * u.val = 0; omega
  | ⟨1, _⟩ => show win0_2.index t (1 : Fin 2) * 1024 + 1 * h.val = h.val; omega

/-- The bias as the region finds it: the [1] argument reshaped [1, 1] by the one host line before the launch. -/
theorem bias_entry (c : Dev nD) :
    (V m c main_v0 : S1x1.Idx → EReal) = shapeCast S1x1 (m ((c : Thread nD τ).loc main_arg2)) Facts₀.shapeCasts_S1_S1x1 := by
  show StableHlo.after hostOps0 (fun b => m (c, b)) (Proc.devRef .tc main_v0) = _
  after_results
  rfl

theorem biasBlk_apply (c : Dev nD) (t : Fin cfg0.N) (u u' : Fin 1) :
    biasBlk m c t (ix2 u u') = (m ((c : Thread nD τ).loc main_arg2) : S1.Idx → EReal) (ix1 (0 : Fin 1)) := by
  obtain ⟨-, -, -, -, -, -, -, -, e0, e1, -⟩ := block_index t
  show V m c main_v0 (((cfg0.win 3).blk t).view.emb (ix2 u u')) = _
  rw [bias_entry]
  have he : ((cfg0.win 3).blk t).view.emb (ix2 u u') = ix2 (0 : Fin 1) (0 : Fin 1) := funext fun a => Fin.ext (by
    match a with
    | ⟨0, _⟩ => show win0_3.index t (0 : Fin 2) * 1 + 1 * u.val = 0; omega
    | ⟨1, _⟩ => show win0_3.index t (1 : Fin 2) * 1 + 1 * u'.val = 0; omega)
  rw [he]
  exact shapeCast_a_1a_apply _ _ 0 0

/-! ## What a point writes back, and the array after the run -/

/-- Point t's write-back block, placed in the output array, starts at (t, 0, 0). -/
theorem out_emb (t : Fin cfg0.N) (u : Fin 1) (cc : Fin 64) (u' : Fin 1) :
    ((cfg0.win 4).blk t).view.emb (ix3 u cc u') = ix3 (batch t) cc (0 : Fin 1) := by
  obtain ⟨-, -, -, -, -, -, -, -, -, -, e0, e1, e2⟩ := block_index t
  refine funext fun a => Fin.ext ?_
  match a with
  | ⟨0, _⟩ => show win0_4.index t (0 : Fin 3) * 1 + 1 * u.val = t.val; omega
  | ⟨1, _⟩ => show win0_4.index t (1 : Fin 3) * 64 + 1 * cc.val = cc.val; omega
  | ⟨2, _⟩ => show win0_4.index t (2 : Fin 3) * 1 + 1 * u'.val = 0; omega

/-- WHAT POINT t WRITES BACK is batch t of the logits: each cell's stored value is the cell's logit of the batch's
    span pairs and rows, the weight row and the bias, which are the arguments' entries at batch t. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero zero3]
  simp only [View.ld_unit_zero (S := S1x64x2) zero3, View.ld_unit_zero (S := S1x2048x1024) zero3,
    View.ld_unit_zero (S := S1x1024) zero2, View.ld_unit_zero (S := S1x1) zero2]
  show k0_pay1 (F := Ideal) (spanBlk m c t) (rowBlk m c t) (weightBlk m c t) (biasBlk m c t)
    = fun y : S1x64x1.Idx => result m c (((cfg0.win 4).blk t).view.emb y)
  funext y
  obtain ⟨u, cc, u', rfl⟩ : ∃ (u : Fin 1) (cc : Fin 64) (u' : Fin 1), y = ix3 u cc u' := ⟨y 0, y 1, y 2, eq_ix3 y⟩
  refine (pay_apply _ _ _ _ u cc u').trans ?_
  rw [out_emb]
  show _ = cellLogit _ _ _ _ _
  simp only [spanBlk_apply, rowBlk_apply, weightBlk_apply, biasBlk_apply]

/-- An index of the output array is in point t's block iff each coordinate is in the block's range on its axis. -/
theorem mem_out_blk (t : Fin cfg0.N) (i : S8x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v1).slice (win0_4.rect t)).set ↔ _
  rw [View.set_slice_whole, Rect.mem_set_unit]
  exact Iff.rfl

/-- The eight blocks tile the output: entry (b, c, 0) is in the block of point b. -/
theorem out_covered (i : S8x64x1.Idx) : ∃ t : Fin cfg0.N, (cfg0.win 4).flush t = true ∧ i ∈ ((cfg0.win 4).blk t).view.set := by
  have h0 : (i 0).val < 8 := (i 0).isLt
  have h1 : (i 1).val < 64 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  obtain ⟨-, -, -, -, -, -, -, -, -, -, e0, e1, e2⟩ := block_index t
  refine ⟨t, flush0_4 t, ?_⟩
  rw [mem_out_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 1 ≤ (i 2).val ∧ (i 2).val < win0_4.index t (2 : Fin 3) * 1 + 1; omega

/-- THE OUTPUT ARRAY after the run is the logits of the arguments. -/
theorem final (c : Dev nD) : (dats m 0 c).arrAt 4 cfg0.N = result m c :=
  (dats m 0 c).arrAt_eq_of_cover 4 (result m c) (fun t _ => flushed_eq m c t) out_covered

/-! ## The program's result: the output array reshaped by the one host line after the launch -/

theorem result_tail (c : Dev nD) :
    Pipeline.afterTail₀ cfgs (dats m) 0 (V0 m) [hostOps1] c main_v2
      = shapeCast S512x1 (result m c) Facts₀.shapeCasts_S8x64x1_S512x1 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = result m c :=
    (Pipeline.withArrays_arr spec0 launch0.win.arr_inj c _ _ 4).trans (final m c)
  funext i
  exact congrFun (congrArg (fun x => shapeCast S512x1 x Facts₀.shapeCasts_S8x64x1_S512x1) hw) i

/-! ## The run, read -/

/-- Every weakly fair execution of the kernel's program terminates with its result at the logits of the arguments,
    reshaped [8, 64, 1] → [512, 1], and the arguments unchanged. -/
theorem run : θ_run defs (onTc (τ := τ) (main (F := Ideal))) ⟨m, fun _ => 0, ρ⟩ fun r => ∀ c : Dev nD,
      r.2.mem ((c.tc : Thread nD τ).loc main_v2) = shapeCast S512x1 (result m c) Facts₀.shapeCasts_S8x64x1_S512x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (result_tail m c),
       ((h c).1 1).trans (((dats m 0 c).arrAt_in 1 rfl _).trans ((A_eq m c 1).trans (V_main_arg0 m c))),
       ((h c).1 2).trans (((dats m 0 c).arrAt_in 2 rfl _).trans ((A_eq m c 2).trans (V_main_arg1 m c))),
       ((h c).2 main_arg2 (Pipeline.mem_restRefs_of main_arg2 (by decide) (by decide))).trans (W_main_arg2 m (dats m) c),
       ((h c).1 0).trans (((dats m 0 c).arrAt_in 0 rfl _).trans ((A_eq m c 0).trans (V_main_arg3 m c)))⟩)
    (run_main m ρ)

end Cert.SpanPool.Kernel

end
-- ==== Proof.lean ====
/-
  Masked mean pooling of feature rows over spans, followed by a one-output linear layer.

  For each of 8 batches and 64 cells, a cell names an inclusive span [s, e] of the batch's 2048 row positions.
  Both programs compute, at cell (b, c),

      ( Σ_h ( (Σ_l 1[s ≤ l ≤ e] · feature[b, l, h]) / max (Σ_l 1[s ≤ l ≤ e]) 1 ) · weight[h] ) + bias

  and return the 512 values as a [512, 1] column (`Cert.SpanPool.logits`, then the row-major reshape).

  The kernel works one batch per grid point: it builds the indicator from a position iota against the two
  span ends, takes its lane sum for the count, pools by a matrix product of the indicator with the batch's rows,
  divides by the count, and contracts with the transposed weight row by a second matrix product; the block it
  writes back is batch b of the [8, 64, 1] output, and the eight blocks tile it. The reference builds the
  indicator for all batches at once, sums it, pools by a batched contraction, divides, contracts with the weight row
  and adds the broadcast bias. On the extended reals the changes of float format in front of the kernel's
  products are the identity, a matrix product into a zero accumulator and the host's contraction are the same sum,
  the lane sum and the host's sum from 0 are the same sum, and a bit widened to a word and read signed is the bit
  read unsigned; both sides are then the same nest of sums term by term, so no law of the extended reals that needs
  finite inputs is used, and the precondition is not opened.

  The idealization rewrote no operation, so the kernel's idealization is its own text read on the extended reals.
-/
import proofs.«141874_j63428077027810_1_alg».proof.Defs
import proofs.«141874_j63428077027810_1_alg».proof.Proof.Gen.Kernel
import proofs.«141874_j63428077027810_1_alg».proof.Proof.Gen.Kernel.Skeleton
import proofs.«141874_j63428077027810_1_alg».proof.Proof.Gen.Kernel.Launch
import proofs.«141874_j63428077027810_1_alg».proof.Proof.Gen.Kernel.Points
import proofs.«141874_j63428077027810_1_alg».proof.Proof.Gen.Kernel.Frame
import proofs.«141874_j63428077027810_1_alg».proof.Proof.Gen.KernelIdeal
import proofs.«141874_j63428077027810_1_alg».proof.Proof.Gen.KernelIdeal.Skeleton
import proofs.«141874_j63428077027810_1_alg».proof.Proof.Gen.KernelIdeal.Launch
import proofs.«141874_j63428077027810_1_alg».proof.Proof.Gen.KernelIdeal.Points
import proofs.«141874_j63428077027810_1_alg».proof.Proof.Gen.KernelIdeal.Frame
import proofs.«141874_j63428077027810_1_alg».proof.Proof.Gen.ReferenceIdeal
import proofs.«141874_j63428077027810_1_alg».proof.Proof.Gen.ReferenceIdeal.Run
import proofs.«141874_j63428077027810_1_alg».proof.Proof.Gen.ReferenceIdeal.Read
import proofs.«141874_j63428077027810_1_alg».proof.Proof.Gen.Pre_finite_inputs
import proofs.«141874_j63428077027810_1_alg».proof.Proof.Spec
import proofs.«141874_j63428077027810_1_alg».proof.Proof.Reference
import proofs.«141874_j63428077027810_1_alg».proof.Proof.Body
import proofs.«141874_j63428077027810_1_alg».proof.Proof.KernelValue
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end with their result at the logits of the (agreeing) arguments, reshaped to a [512, 1] column. -/
theorem algebraic : Cert.algebraic_KernelIdeal_ReferenceIdeal := by
  intro m ρ m' ρ' _ hagree
  refine ⟨_, Cert.SpanPool.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _ _).trans ?_
  unfold Cert.ReferenceIdeal.Read.val_main_v28
  rw [Cert.SpanPool.Ref.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
